-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S2x800000 32) (main_arg1 : FVec F S50000x128 .f32) (main_arg2 : FVec F S128x128 .f32) (main_arg3 : FVec F S128 .f32) (main_arg4 : FVec F S128x128 .f32) (main_arg5 : FVec F S128 .f32) (main_arg6 : FVec F S128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_v13 main_v16
-- ==== Kernel.lean ====
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S5000x128 : Shape := ⟨2, ![5000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 69
  | .vmem => 17
  | .smem => 0
  | _ => 0

abbrev bufTy : (tb : Table) → Fin (tcTables nBuf tb) → BufTy
  | .hbm, ⟨0, _⟩ => ⟨S2x800000, .i32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S50000x128, .f32⟩
  | .hbm, ⟨8, _⟩ => ⟨S50000x128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 101
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S50000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000, .f32⟩
  | .hbm, ⟨74, _⟩ => ⟨S50000x1, .f32⟩
  | .hbm, ⟨75, _⟩ => ⟨S_, .f32⟩
  | .hbm, ⟨76, _⟩ => ⟨S50000x1, .f32⟩
  | .hbm, ⟨77, _⟩ => ⟨S50000x1, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000, .f32⟩
  | .hbm, ⟨83, _⟩ => ⟨S50000x1, .f32⟩
  | .hbm, ⟨84, _⟩ => ⟨S_, .f32⟩
  | .hbm, ⟨85, _⟩ => ⟨S50000x1, .f32⟩
  | .hbm, ⟨86, _⟩ => ⟨S50000x1, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000x1, .f32⟩
  | .hbm, ⟨91, _⟩ => ⟨S50000x1, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibPlainMatmul.lean ====
/-
  A plain matrix product read at one entry, over the extended reals.

  For the dimension numbers of an `M×K` by `K×N` product (`DotDims.plain M K N`: the left operand contracted on its
  second axis, the right on its first, no batch axis) the product accumulated into the zero splat has, at row `r` and
  column `c`, the entry `∑ k, lhs (r, k) * rhs (k, c)`: the contraction index, a one-axis multi-index, is re-indexed
  by its one coordinate `k : Fin K`, and the operand indices the dimension numbers compute are `(r, k)` and `(k, c)`.
  Stated for every `M`, `K`, `N`, with the indices built by `ix2`.
-/
import Idealize.ShloMosaic.Lib.ValueIdx
import Idealize.ShloMosaic.PureOps.Ideal.Laws

noncomputable section

namespace Cert.Lib.PlainMatmul

open Idealize.ShloMosaic Idealize.ShloMosaic.ValueIdx

variable {M K N : Nat}

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction index's one coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction index's one coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- THE ENTRY: an `M×K` by `K×N` product into the zero accumulator, at `(r, c)`, is the sum over `k` of
    `lhs (r, k) * rhs (k, c)` — no rounding, no order, whatever the operands' formats and the precision hint. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

end Cert.Lib.PlainMatmul

end
-- ==== Proof.Projection.lean ====
/-
  The first kernel's two results, as whole arrays.

  The first kernel walks the 50000 rows of `x` in ten blocks of 5000. At each block it multiplies the block by
  the whole 128×128 matrix `W_gcn`, and by `W_lin`, into a zero accumulator, and writes the two 5000×128 products
  back to rows `5000·t … 5000·t + 4999` of its two result arrays. Over the extended reals a change of float format
  is the identity and the product into zero is the plain sum, so the entry `(r, c)` of a result is
  `∑ k, x (r, k) · W (k, c)`: the entry of the whole product `x · W`. The ten blocks tile the 50000 rows, so each
  result array ends as that product everywhere.
-/
import proofs.«179050_j2302102471102_1_alg».proof.Proof.Gen.KernelIdeal.Frame
import proofs.«179050_j2302102471102_1_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.Projection

open Cert.KernelIdeal Cert.KernelIdeal.Gen
open Idealize.ShloMosaic Idealize.ShloMosaic.TcCoe Idealize.ShloMosaic.ValueIdx Idealize.SL.Sem
open Idealize.ShloMosaic.Pipeline (Dat)

theorem zeros : (![0, 0] : Fin 2 → Nat) = fun _ => 0 := funext fun a => by fin_cases a <;> rfl

/-- The product of a 50000×128 array with a 128×128 matrix: entry `(r, c)` is `∑ k, x (r, k) · w (k, c)`. -/
def rowsTimes (x : FVec Ideal S50000x128 .f32) (w : FVec Ideal S128x128 .f32) : FVec Ideal S50000x128 .f32 :=
  fun i => ∑ k : Fin 128, x (ix2 (n0 := 50000) (n1 := 128) ⟨(i 0).val, idx2_lt0 i⟩ k)
    * w (ix2 (n0 := 128) (n1 := 128) k ⟨(i 1).val, idx2_lt1 i⟩)

/-- One block's product with `W_gcn`, at an entry: the format changes drop out and the product into zero is the sum. -/
theorem blockTimesGcn (x0 : Vec Ideal S5000x128 .f32) (x1 : Vec Ideal S128x128 .f32) (p : Fin 5000) (q : Fin 128) :
    k0_pay2 (F := Ideal) x0 x1 (ix2 p q) = ∑ k : Fin 128, x0 (ix2 p k) * x1 (ix2 k q) := by
  unfold k0_pay2 k0_pay1
  exact Cert.Lib.PlainMatmul.matmul_zero_apply (M := 5000) (K := 128) (N := 128) none
    (truncf .bf16 x0 bitsLt_bf16_f32) (truncf .bf16 x1 bitsLt_bf16_f32) p q

/-- The same block's product with `W_lin`. -/
theorem blockTimesLin (x0 : Vec Ideal S5000x128 .f32) (x2 : Vec Ideal S128x128 .f32) (p : Fin 5000) (q : Fin 128) :
    k0_pay3 (F := Ideal) x0 x2 (ix2 p q) = ∑ k : Fin 128, x0 (ix2 p k) * x2 (ix2 k q) := by
  unfold k0_pay3 k0_pay1
  exact Cert.Lib.PlainMatmul.matmul_zero_apply (M := 5000) (K := 128) (N := 128) none
    (truncf .bf16 x0 bitsLt_bf16_f32) (truncf .bf16 x2 bitsLt_bf16_f32) p q

/-- Where the blocks sit: at point `t` the block of `x` and both result blocks start at row `5000·t`, column 0;
    the two matrices are read whole. -/
theorem blockStarts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

section
variable (V : (c : Dev nD) → (b : Ref sig .tc) → Buf (Elt Ideal) ((c : Thread nD τ).loc b))

/-- What point `t` writes back to the first result: block `t` of `x · W_gcn`. -/
theorem flushedGcn (c : Dev nD) (t : Fin cfg0.N) :
    (dat0 (F := Ideal) V c).flushed 3 t
      = ((cfg0.win 3).blk t).view.read (Elt Ideal) (rowsTimes (V c main_arg1) (V c main_arg2)) := by
  show (cfg0.win 3).cut (grid0.coords t) ((dat0 V c).after 3 t) = _
  rw [after0_3]
  unfold out0_3
  rw [View.canon_unit_zero zeros]
  simp only [View.ld_unit_zero (S := S5000x128) zeros, View.ld_unit_zero (S := S128x128) zeros]
  obtain ⟨e00, e01, e10, e11, e20, e21, e30, e31, e40, e41⟩ := blockStarts t
  funext j
  obtain ⟨p, q, rfl⟩ : ∃ (p : Fin 5000) (q : Fin 128), j = ix2 p q := ⟨j 0, j 1, eq_ix2 j⟩
  show k0_pay2 (F := Ideal) (iblk0 V c 0 t) (iblk0 V c 1 t) (ix2 p q)
    = rowsTimes (V c main_arg1) (V c main_arg2) (((cfg0.win 3).blk t).view.emb (ix2 p q))
  rw [blockTimesGcn]
  unfold rowsTimes
  refine Finset.sum_congr rfl fun k _ => ?_
  have hx : iblk0 V c 0 t (ix2 p k) = V c main_arg1 (ix2 (n0 := 50000) (n1 := 128)
      ⟨((((cfg0.win 3).blk t).view.emb (ix2 p q)) 0).val, idx2_lt0 _⟩ k) := by
    show V c main_arg1 (((cfg0.win 0).blk t).view.emb (ix2 p k)) = _
    refine congrArg (V c main_arg1) (funext fun a => Fin.ext ?_)
    match a with
    | ⟨0, _⟩ =>
      show win0_0.index t (0 : Fin 2) * 5000 + 1 * p.val = win0_3.index t (0 : Fin 2) * 5000 + 1 * p.val
      omega
    | ⟨1, _⟩ =>
      show win0_0.index t (1 : Fin 2) * 128 + 1 * k.val = k.val
      omega
  have hw : iblk0 V c 1 t (ix2 k q) = V c main_arg2 (ix2 (n0 := 128) (n1 := 128) k
      ⟨((((cfg0.win 3).blk t).view.emb (ix2 p q)) 1).val, idx2_lt1 _⟩) := by
    show V c main_arg2 (((cfg0.win 1).blk t).view.emb (ix2 k q)) = _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = win0_3.index t (1 : Fin 2) * 128 + 1 * q.val
      omega
  rw [hx, hw]

/-- What point `t` writes back to the second result: block `t` of `x · W_lin`. -/
theorem flushedLin (c : Dev nD) (t : Fin cfg0.N) :
    (dat0 (F := Ideal) V c).flushed 4 t
      = ((cfg0.win 4).blk t).view.read (Elt Ideal) (rowsTimes (V c main_arg1) (V c main_arg4)) := by
  show (cfg0.win 4).cut (grid0.coords t) ((dat0 V c).after 4 t) = _
  rw [after0_4]
  unfold out0_4
  rw [View.canon_unit_zero zeros]
  simp only [View.ld_unit_zero (S := S5000x128) zeros, View.ld_unit_zero (S := S128x128) zeros]
  obtain ⟨e00, e01, e10, e11, e20, e21, e30, e31, e40, e41⟩ := blockStarts t
  funext j
  obtain ⟨p, q, rfl⟩ : ∃ (p : Fin 5000) (q : Fin 128), j = ix2 p q := ⟨j 0, j 1, eq_ix2 j⟩
  show k0_pay3 (F := Ideal) (iblk0 V c 0 t) (iblk0 V c 2 t) (ix2 p q)
    = rowsTimes (V c main_arg1) (V c main_arg4) (((cfg0.win 4).blk t).view.emb (ix2 p q))
  rw [blockTimesLin]
  unfold rowsTimes
  refine Finset.sum_congr rfl fun k _ => ?_
  have hx : iblk0 V c 0 t (ix2 p k) = V c main_arg1 (ix2 (n0 := 50000) (n1 := 128)
      ⟨((((cfg0.win 4).blk t).view.emb (ix2 p q)) 0).val, idx2_lt0 _⟩ k) := by
    show V c main_arg1 (((cfg0.win 0).blk t).view.emb (ix2 p k)) = _
    refine congrArg (V c main_arg1) (funext fun a => Fin.ext ?_)
    match a with
    | ⟨0, _⟩ =>
      show win0_0.index t (0 : Fin 2) * 5000 + 1 * p.val = win0_4.index t (0 : Fin 2) * 5000 + 1 * p.val
      omega
    | ⟨1, _⟩ =>
      show win0_0.index t (1 : Fin 2) * 128 + 1 * k.val = k.val
      omega
  have hw : iblk0 V c 2 t (ix2 k q) = V c main_arg4 (ix2 (n0 := 128) (n1 := 128) k
      ⟨((((cfg0.win 4).blk t).view.emb (ix2 p q)) 1).val, idx2_lt1 _⟩) := by
    show V c main_arg4 (((cfg0.win 2).blk t).view.emb (ix2 k q)) = _
    refine congrArg (V c main_arg4) (funext fun a => Fin.ext ?_)
    match a with
    | ⟨0, _⟩ =>
      show win0_2.index t (0 : Fin 2) * 128 + 1 * k.val = k.val
      omega
    | ⟨1, _⟩ =>
      show win0_2.index t (1 : Fin 2) * 128 + 1 * q.val = win0_4.index t (1 : Fin 2) * 128 + 1 * q.val
      omega
  rw [hx, hw]

/-- An entry of the first result array lies in point `t`'s block iff its row is in `5000·t … 5000·t + 4999`. -/
theorem inBlockGcn (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0_0).slice (win0_3.rect t)).set ↔ _
  rw [View.set_slice_whole, Rect.mem_set_unit]
  exact Iff.rfl

theorem inBlockLin (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v0_1).slice (win0_4.rect t)).set ↔ _
  rw [View.set_slice_whole, Rect.mem_set_unit]
  exact Iff.rfl

/-- Row `r` lies in the block of point `r / 5000`. -/
theorem pointOfRow (i : S50000x128.Idx) : (i 0).val / 5000 < cfg0.N := by
  have h := idx2_lt0 i
  rw [show cfg0.N = 10 from N_0]
  omega

/-- The first result array after the first kernel: `x · W_gcn`. -/
theorem finalGcn (c : Dev nD) :
    (dat0 (F := Ideal) V c).arrAt 3 cfg0.N = rowsTimes (V c main_arg1) (V c main_arg2) :=
  (dat0 (F := Ideal) V c).arrAt_eq_of_cover 3 _ (fun t _ => flushedGcn V c t) (fun i => by
    refine ⟨⟨(i 0).val / 5000, pointOfRow i⟩, flush0_3 _, ?_⟩
    rw [inBlockGcn]
    obtain ⟨e00, e01, e10, e11, e20, e21, e30, e31, e40, e41⟩ := blockStarts ⟨(i 0).val / 5000, pointOfRow i⟩
    have h0 := idx2_lt0 i
    have h1 := idx2_lt1 i
    intro a
    match a with
    | ⟨0, _⟩ =>
      show win0_3.index ⟨(i 0).val / 5000, pointOfRow i⟩ (0 : Fin 2) * 5000 ≤ (i 0).val
        ∧ (i 0).val < win0_3.index ⟨(i 0).val / 5000, pointOfRow i⟩ (0 : Fin 2) * 5000 + 5000
      rw [e30]; show (i 0).val / 5000 * 5000 ≤ (i 0).val ∧ (i 0).val < (i 0).val / 5000 * 5000 + 5000
      omega
    | ⟨1, _⟩ =>
      show win0_3.index ⟨(i 0).val / 5000, pointOfRow i⟩ (1 : Fin 2) * 128 ≤ (i 1).val
        ∧ (i 1).val < win0_3.index ⟨(i 0).val / 5000, pointOfRow i⟩ (1 : Fin 2) * 128 + 128
      rw [e31]; omega)

/-- The second result array after the first kernel: `x · W_lin`. -/
theorem finalLin (c : Dev nD) :
    (dat0 (F := Ideal) V c).arrAt 4 cfg0.N = rowsTimes (V c main_arg1) (V c main_arg4) :=
  (dat0 (F := Ideal) V c).arrAt_eq_of_cover 4 _ (fun t _ => flushedLin V c t) (fun i => by
    refine ⟨⟨(i 0).val / 5000, pointOfRow i⟩, flush0_4 _, ?_⟩
    rw [inBlockLin]
    obtain ⟨e00, e01, e10, e11, e20, e21, e30, e31, e40, e41⟩ := blockStarts ⟨(i 0).val / 5000, pointOfRow i⟩
    have h0 := idx2_lt0 i
    have h1 := idx2_lt1 i
    intro a
    match a with
    | ⟨0, _⟩ =>
      show win0_4.index ⟨(i 0).val / 5000, pointOfRow i⟩ (0 : Fin 2) * 5000 ≤ (i 0).val
        ∧ (i 0).val < win0_4.index ⟨(i 0).val / 5000, pointOfRow i⟩ (0 : Fin 2) * 5000 + 5000
      rw [e40]; show (i 0).val / 5000 * 5000 ≤ (i 0).val ∧ (i 0).val < (i 0).val / 5000 * 5000 + 5000
      omega
    | ⟨1, _⟩ =>
      show win0_4.index ⟨(i 0).val / 5000, pointOfRow i⟩ (1 : Fin 2) * 128 ≤ (i 1).val
        ∧ (i 1).val < win0_4.index ⟨(i 0).val / 5000, pointOfRow i⟩ (1 : Fin 2) * 128 + 128
      rw [e41]; omega)

end

end Cert.KernelIdeal.Projection

end
-- ==== Proof.Aggregate.lean ====
/-
  The host operations between the two kernels, carried as ONE function.

  Between its two kernels the kernel's program runs 59 host operations: it builds the edge lists with self-loops,
  the degrees by a scatter-add of ones, their reciprocal square roots where positive, the per-edge weights by two
  gathers, gathers the first kernel's first result row by row, scales the rows and scatter-adds them into the
  aggregate; then it reshapes the three parameter vectors into rows. The reference runs the same operations on the
  same edge list, its gather reading the product `x · W_gcn` it computed itself. So the aggregate the second kernel
  is entered with is the reference's aggregate stage, as soon as the first kernel's first result IS that product:
  what the operations compute is never opened, for any float family.
-/
import proofs.«179050_j2302102471102_1_alg».proof.Proof.Gen.KernelIdeal.Frame
import proofs.«179050_j2302102471102_1_alg».proof.Proof.RefRead
import Idealize.ShloMosaic.Lib.StableHlo.Run

set_option maxRecDepth 16384

noncomputable section

namespace Cert.KernelIdeal.Aggregate

open Cert.KernelIdeal Cert.KernelIdeal.Gen
open Idealize.ShloMosaic Idealize.ShloMosaic.TcCoe Idealize.SL.Sem Idealize.ShloMosaic.StableHlo

variable {F : FTy → Type} [FloatOps F]

set_option maxHeartbeats 4000000 in
/-- From any buffer contents `W` in which the first kernel's first result is the reference's product stage, the
    three host stretches leave in the aggregate's buffer the reference's aggregate stage of the same edge list. -/
theorem aggregated (W : Valuation τ sig (Elt F))
    (x1 : (⟨Cert.ReferenceIdeal.S50000x128, .f32⟩ : BufTy).Contents (Elt F))
    (x2 : (⟨Cert.ReferenceIdeal.S128x128, .f32⟩ : BufTy).Contents (Elt F))
    (hg : W (Proc.devRef .tc main_v0_0) = Cert.ReferenceIdeal.ReadP.val_main_v30 (F := F) x1 x2) :
    StableHlo.after hostOps1_2 (StableHlo.after hostOps1_1 (StableHlo.after hostOps1 W)) (Proc.devRef .tc main_v43)
      = Cert.ReferenceIdeal.ReadP.val_main_v43 (F := F) (W (Proc.devRef .tc main_arg0)) x1 x2 := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  simp only [TRef.ofBuf, TRef.toBuf, cast_eq]
  rw [hg]
  simp only [Cert.ReferenceIdeal.ReadP.val_main_v43, Cert.ReferenceIdeal.ReadP.val_main_v41, Cert.ReferenceIdeal.ReadP.val_main_cst_8, Cert.ReferenceIdeal.ReadP.val_main_v42, Cert.ReferenceIdeal.ReadP.val_main_v40, Cert.ReferenceIdeal.ReadP.val_main_v37, Cert.ReferenceIdeal.ReadP.val_main_v36, Cert.ReferenceIdeal.ReadP.val_main_v35, Cert.ReferenceIdeal.ReadP.val_main_v34, Cert.ReferenceIdeal.ReadP.val_main_v33, Cert.ReferenceIdeal.ReadP.val_main_c_7, Cert.ReferenceIdeal.ReadP.val_main_v32, Cert.ReferenceIdeal.ReadP.val_main_v31, Cert.ReferenceIdeal.ReadP.val_main_c_6, Cert.ReferenceIdeal.ReadP.val_main_v39, Cert.ReferenceIdeal.ReadP.val_main_v38, Cert.ReferenceIdeal.ReadP.val_main_v29, Cert.ReferenceIdeal.ReadP.val_main_v21, Cert.ReferenceIdeal.ReadP.val_main_v28, Cert.ReferenceIdeal.ReadP.val_main_v27, Cert.ReferenceIdeal.ReadP.val_main_v26, Cert.ReferenceIdeal.ReadP.val_main_v25, Cert.ReferenceIdeal.ReadP.val_main_v24, Cert.ReferenceIdeal.ReadP.val_main_c_5, Cert.ReferenceIdeal.ReadP.val_main_v23, Cert.ReferenceIdeal.ReadP.val_main_v22, Cert.ReferenceIdeal.ReadP.val_main_c_4, Cert.ReferenceIdeal.ReadP.val_main_v20, Cert.ReferenceIdeal.ReadP.val_main_v19, Cert.ReferenceIdeal.ReadP.val_main_v18, Cert.ReferenceIdeal.ReadP.val_main_v17, Cert.ReferenceIdeal.ReadP.val_main_c_3, Cert.ReferenceIdeal.ReadP.val_main_v16, Cert.ReferenceIdeal.ReadP.val_main_v15, Cert.ReferenceIdeal.ReadP.val_main_c, Cert.ReferenceIdeal.ReadP.val_main_v14, Cert.ReferenceIdeal.ReadP.val_main_call0_v1, Cert.ReferenceIdeal.ReadP.val_main_call0_v0, Cert.ReferenceIdeal.ReadP.val_main_cst_2, Cert.ReferenceIdeal.ReadP.val_main_v13, Cert.ReferenceIdeal.ReadP.val_main_v12, Cert.ReferenceIdeal.ReadP.val_main_v11, Cert.ReferenceIdeal.ReadP.val_main_cst_1, Cert.ReferenceIdeal.ReadP.val_main_v10, Cert.ReferenceIdeal.ReadP.val_main_v9, Cert.ReferenceIdeal.ReadP.val_main_v8, Cert.ReferenceIdeal.ReadP.val_main_cst_0, Cert.ReferenceIdeal.ReadP.val_main_v7, Cert.ReferenceIdeal.ReadP.val_main_cst, Cert.ReferenceIdeal.ReadP.val_main_v6, Cert.ReferenceIdeal.ReadP.val_main_v5, Cert.ReferenceIdeal.ReadP.val_main_v4, Cert.ReferenceIdeal.ReadP.val_main_v3, Cert.ReferenceIdeal.ReadP.val_main_v2, Cert.ReferenceIdeal.ReadP.val_main_v1, Cert.ReferenceIdeal.ReadP.val_main_v0]
  rfl

/-- No host operation writes the first kernel's second result. -/
theorem projectedKept (W : Valuation τ sig (Elt F)) :
    StableHlo.after hostOps1_2 (StableHlo.after hostOps1_1 (StableHlo.after hostOps1 W)) (Proc.devRef .tc main_v0_1)
      = W (Proc.devRef .tc main_v0_1) := by
  after_results_simp

/-- The bias row the second kernel is entered with is the bias vector reshaped to one row. -/
theorem biasRow (W : Valuation τ sig (Elt F)) :
    StableHlo.after hostOps1_2 (StableHlo.after hostOps1_1 (StableHlo.after hostOps1 W)) (Proc.devRef .tc main_v44)
      = shapeCast S1x128 (W (Proc.devRef .tc main_arg3)) shapeCasts_S128_S1x128 := by
  after_results_simp
  rfl

/-- The weight row likewise. -/
theorem weightRow (W : Valuation τ sig (Elt F)) :
    StableHlo.after hostOps1_2 (StableHlo.after hostOps1_1 (StableHlo.after hostOps1 W)) (Proc.devRef .tc main_v45)
      = shapeCast S1x128 (W (Proc.devRef .tc main_arg5)) shapeCasts_S128_S1x128 := by
  after_results_simp
  rfl

/-- The offset row likewise. -/
theorem offsetRow (W : Valuation τ sig (Elt F)) :
    StableHlo.after hostOps1_2 (StableHlo.after hostOps1_1 (StableHlo.after hostOps1 W)) (Proc.devRef .tc main_v46)
      = shapeCast S1x128 (W (Proc.devRef .tc main_arg6)) shapeCasts_S128_S1x128 := by
  after_results_simp
  rfl

end Cert.KernelIdeal.Aggregate

end
-- ==== Proof.RowNorm.lean ====
/-
  The normalisation of one row of 128 extended reals, and the one law that joins the two programs.

  Both programs end by normalising every row `y` of a 50000×128 array: with `μ = (∑ y) / 128` the row's mean and
  `σ² = (∑ (y − μ)²) / 128` the mean of its squared deviations, entry `q` of the result is
  `(y q − μ) · rsqrt (σ² + ε) · w q + β q`. The divisor 128, `ε` and the shift added to the residual sum are
  the same float words in both programs, so they are kept as words here and never evaluated.

  The rows the two programs normalise differ only in how the residual sum is grouped: the kernel adds the
  projection before the bias, `((a + h) + b) + s`, the reference after it, `((a + b) + h) + s`. Addition of extended
  reals is commutative and associative, infinities included, so the two rows are equal with no finiteness
  hypothesis.
-/
import Idealize.ShloMosaic.PureOps.Ideal
import Idealize.ShloMosaic.PureOps.Ideal.Laws

noncomputable section

namespace Cert.RowNorm

open Idealize.ShloMosaic

/-- The row length 128 as the float word both programs divide by. -/
abbrev len : EReal := Ideal.ofBits .f32 0x43000000#32
/-- The word both programs add under the reciprocal square root. -/
abbrev eps : EReal := Ideal.ofBits .f32 0x3727C5AC#32
/-- The word both programs add to the residual sum. -/
abbrev shift : EReal := Ideal.ofBits .f32 0x358637BD#32

/-- A row's mean: its sum divided by the row length. -/
def mean (y : Fin 128 → EReal) : EReal := Ideal.div (∑ k : Fin 128, y k) len

/-- Entry `q` of the normalised row, scaled by `w` and shifted by `β`. -/
def normEntry (y w β : Fin 128 → EReal) (q : Fin 128) : EReal :=
  (y q - mean y) * Ideal.rsqrt (mean (fun k => (y k - mean y) * (y k - mean y)) + eps) * w q + β q

/-- The residual sum grouped as the kernel groups it is the sum grouped as the reference groups it. -/
theorem regroup (a h b s : EReal) : a + h + b + s = a + b + h + s := by
  rw [add_right_comm a h b]

end Cert.RowNorm

end
-- ==== Proof.Normalise.lean ====
/-
  The second kernel's result, as a whole array.

  The second kernel walks the 50000 rows in ten blocks of 5000. At each block it adds the aggregated block, the
  projected block, the bias row and a constant shift, and normalises every row of the sum: it subtracts the row's
  mean, multiplies by the reciprocal square root of the mean squared deviation plus `ε`, scales by the weight row
  and adds the offset row. A row of a block is a row of the array, so entry `(r, c)` of the result depends only on
  row `r` of the two 50000×128 operands and on the three parameter rows: it is `RowNorm.normEntry` of that row.
  The ten blocks tile the 50000 rows, so the result array ends as that function of the operand arrays everywhere.
-/
import proofs.«179050_j2302102471102_1_alg».proof.Proof.Gen.KernelIdeal.Frame
import proofs.«179050_j2302102471102_1_alg».proof.Proof.RowNorm
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Normalise

open Cert.KernelIdeal Cert.KernelIdeal.Gen
open Idealize.ShloMosaic Idealize.ShloMosaic.TcCoe Idealize.ShloMosaic.ValueIdx Idealize.SL.Sem
open Idealize.ShloMosaic.Pipeline (Dat)
open Cert.RowNorm (len eps shift mean normEntry)

theorem zeros : (![0, 0] : Fin 2 → Nat) = fun _ => 0 := funext fun a => by fin_cases a <;> rfl

/-! ## The body's stages, each a function of whole blocks -/

/-- The residual sum of a block: aggregated block plus projected block plus the bias row plus the shift. -/
def summed (x0 x1 : Vec Ideal S5000x128 .f32) (x2 : Vec Ideal S1x128 .f32) : FVec Ideal S5000x128 .f32 :=
  addf (addf (addf (shapeCast S5000x128 x0 shapeCasts_S5000x128_S5000x128) (shapeCast S5000x128 x1 shapeCasts_S5000x128_S5000x128))
      (broadcastTo S5000x128 (shapeCast S1x128 x2 shapeCasts_S1x128_S1x128) broadcasts_S1x128_S5000x128))
    (broadcast S5000x128 (Scalar.ofBits (F := Ideal) .f32 0x358637BD#32))

/-- The mean of every row of a block, as a column. -/
def rowMean (y : FVec Ideal S5000x128 .f32) : FVec Ideal S5000x1 .f32 :=
  divf (shapeCast S5000x1 (multiReduction .add [1] S5000 y 0x00000000#32 reduces_S5000x128_S5000 (.inl rfl) rfl) shapeCasts_S5000_S5000x1)
    (broadcast S5000x1 (Scalar.ofBits (F := Ideal) .f32 0x43000000#32))

/-- A block with every row's mean subtracted from the row. -/
def centred (y : FVec Ideal S5000x128 .f32) : FVec Ideal S5000x128 .f32 :=
  subf y (broadcastTo S5000x128 (rowMean y) broadcasts_S5000x1_S5000x128)

/-- The reciprocal square root of every row's mean square plus `ε`, as a column. -/
def invDev (d : FVec Ideal S5000x128 .f32) : FVec Ideal S5000x1 .f32 :=
  rsqrt (addf (rowMean (mulf d d)) (broadcast S5000x1 (Scalar.ofBits (F := Ideal) .f32 0x3727C5AC#32)))

/-- The body's stored value is those stages composed: centre the residual sum, scale each row, apply weight and offset. -/
theorem stored_eq (x0 x1 : Vec Ideal S5000x128 .f32) (x2 x3 x4 : Vec Ideal S1x128 .f32) :
    k1_pay1 (F := Ideal) x0 x1 x2 x3 x4
      = addf (mulf (mulf (centred (summed x0 x1 x2))
            (broadcastTo S5000x128 (invDev (centred (summed x0 x1 x2))) broadcasts_S5000x1_S5000x128))
          (broadcastTo S5000x128 (shapeCast S1x128 x3 shapeCasts_S1x128_S1x128) broadcasts_S1x128_S5000x128))
        (broadcastTo S5000x128 (shapeCast S1x128 x4 shapeCasts_S1x128_S1x128) broadcasts_S1x128_S5000x128) := rfl

/-! ## The stages read at an entry -/

/-- A column broadcast along the rows reads, at `(p, q)`, the column's entry `p`. -/
theorem column_apply (v : FVec Ideal S5000x1 .f32) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ =>
    show p.val = if (5000 : Nat) = 1 then 0 else p.val
    rw [if_neg (by decide)]
  | ⟨1, _⟩ => rfl

/-- A parameter row broadcast down the rows reads, at `(p, q)`, the row's entry `q`. -/
theorem row_apply (x : Vec Ideal S1x128 .f32) (p : Fin 5000) (q : Fin 128) :
    broadcastTo S5000x128 (shapeCast S1x128 x shapeCasts_S1x128_S1x128) broadcasts_S1x128_S5000x128 (ix2 p q)
      = x (ix2 (0 : Fin 1) q) := by
  rw [shapeCast_self]
  exact broadcastTo_1b_ab_apply (a := 5000) (b := 128) x broadcasts_S1x128_S5000x128 p q

/-- The residual sum at an entry. -/
theorem summed_apply (x0 x1 : Vec Ideal S5000x128 .f32) (x2 : Vec Ideal S1x128 .f32) (p : Fin 5000) (k : Fin 128) :
    summed x0 x1 x2 (ix2 p k) = x0 (ix2 p k) + x1 (ix2 p k) + x2 (ix2 (0 : Fin 1) k) + shift := by
  unfold summed
  rw [shapeCast_self x0, shapeCast_self x1]
  show x0 (ix2 p k) + x1 (ix2 p k)
      + broadcastTo S5000x128 (shapeCast S1x128 x2 shapeCasts_S1x128_S1x128) broadcasts_S1x128_S5000x128 (ix2 p k) + shift = _
  rw [row_apply]

/-- A row's mean: the lane sum over the row, moved to a column, divided by the row length. -/
theorem rowMean_apply (y : FVec Ideal S5000x128 .f32) (p : Fin 5000) :
    rowMean y (ix2 p (0 : Fin 1)) = mean (fun k => y (ix2 p k)) := by
  unfold rowMean mean
  show Ideal.div (shapeCast S5000x1 (multiReduction .add [1] S5000 y 0x00000000#32 reduces_S5000x128_S5000 (.inl rfl) rfl)
      shapeCasts_S5000_S5000x1 (ix2 p (0 : Fin 1))) len = _
  refine congrArg (Ideal.div · len) ?_
  refine (shapeCast_apply _ shapeCasts_S5000_S5000x1 (ix2 p (0 : Fin 1)) (ix1 p) (by
    rw [Shape.rowMajor_val_two, Shape.rowMajor_val_one]
    show p.val = p.val * 1 + 0
    omega)).trans ?_
  refine (Ideal.multiReduction_add_single y 0x00000000#32 reduces_S5000x128_S5000 (.inl rfl) rfl (ix1 p)).trans ?_
  refine Finset.sum_congr rfl fun k _ => congrArg y (funext fun a => Fin.ext ?_)
  match a with
  | ⟨0, _⟩ => rfl
  | ⟨1, _⟩ => rfl

/-- A centred block at an entry. -/
theorem centred_apply (y : FVec Ideal S5000x128 .f32) (p : Fin 5000) (q : Fin 128) :
    centred y (ix2 p q) = y (ix2 p q) - mean (fun k => y (ix2 p k)) := by
  unfold centred
  show y (ix2 p q) - broadcastTo S5000x128 (rowMean y) broadcasts_S5000x1_S5000x128 (ix2 p q) = _
  rw [column_apply, rowMean_apply]

/-- The row scale at a row. -/
theorem invDev_apply (d : FVec Ideal S5000x128 .f32) (p : Fin 5000) :
    invDev d (ix2 p (0 : Fin 1)) = Ideal.rsqrt (mean (fun k => d (ix2 p k) * d (ix2 p k)) + eps) := by
  unfold invDev
  show Ideal.rsqrt (rowMean (mulf d d) (ix2 p (0 : Fin 1)) + eps) = _
  rw [rowMean_apply]
  rfl

/-- THE BLOCK'S RESULT at an entry: the normalisation of the residual sum's row. -/
theorem stored_apply (x0 x1 : Vec Ideal S5000x128 .f32) (x2 x3 x4 : Vec Ideal S1x128 .f32) (p : Fin 5000) (q : Fin 128) :
    k1_pay1 (F := Ideal) x0 x1 x2 x3 x4 (ix2 p q)
      = normEntry (fun k => x0 (ix2 p k) + x1 (ix2 p k) + x2 (ix2 (0 : Fin 1) k) + shift)
          (fun k => x3 (ix2 (0 : Fin 1) k)) (fun k => x4 (ix2 (0 : Fin 1) k)) q := by
  rw [stored_eq]
  show centred (summed x0 x1 x2) (ix2 p q)
        * broadcastTo S5000x128 (invDev (centred (summed x0 x1 x2))) broadcasts_S5000x1_S5000x128 (ix2 p q)
        * broadcastTo S5000x128 (shapeCast S1x128 x3 shapeCasts_S1x128_S1x128) broadcasts_S1x128_S5000x128 (ix2 p q)
      + broadcastTo S5000x128 (shapeCast S1x128 x4 shapeCasts_S1x128_S1x128) broadcasts_S1x128_S5000x128 (ix2 p q) = _
  rw [column_apply, row_apply, row_apply, invDev_apply, centred_apply]
  simp only [centred_apply, summed_apply]
  rfl

/-! ## From blocks to the array -/

/-- The normalised residual sum of whole arrays: entry `(r, c)` is the normalisation of row `r` of
    `a + h + b + shift`, scaled by `w` and offset by `β`. -/
def normalised (a h : FVec Ideal S50000x128 .f32) (b w β : FVec Ideal S1x128 .f32) : FVec Ideal S50000x128 .f32 :=
  fun i => normEntry
    (fun k => a (ix2 (n0 := 50000) (n1 := 128) ⟨(i 0).val, idx2_lt0 i⟩ k)
      + h (ix2 (n0 := 50000) (n1 := 128) ⟨(i 0).val, idx2_lt0 i⟩ k) + b (ix2 (0 : Fin 1) k) + shift)
    (fun k => w (ix2 (0 : Fin 1) k)) (fun k => β (ix2 (0 : Fin 1) k)) ⟨(i 1).val, idx2_lt1 i⟩

/-- Where the blocks sit: at point `t` the two operand blocks and the result block start at row `5000·t`,
    column 0; the three parameter rows are read whole. -/
theorem blockStarts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

/-- What point `t` writes back: block `t` of the normalised residual sum of the arrays the kernel is entered with. -/
theorem flushedOut (c : Dev nD) (t : Fin cfg1.N) :
    (dat1 (F := Ideal) V c).flushed 5 t
      = ((cfg1.win 5).blk t).view.read (Elt Ideal)
          (normalised (V c main_v43) (V c main_v0_1) (V c main_v44) (V c main_v45) (V c main_v46)) := by
  show (cfg1.win 5).cut (grid1.coords t) ((dat1 V c).after 5 t) = _
  rw [after1_5]
  unfold out1_5
  rw [View.canon_unit_zero zeros]
  simp only [View.ld_unit_zero (S := S5000x128) zeros, View.ld_unit_zero (S := S1x128) zeros]
  obtain ⟨e00, e01, e10, e11, e20, e21, e30, e31, e40, e41, e50, e51⟩ := blockStarts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = normalised (V c main_v43) (V c main_v0_1) (V c main_v44) (V c main_v45) (V c main_v46)
        (((cfg1.win 5).blk t).view.emb (ix2 p q))
  rw [stored_apply]
  unfold normalised
  have hq : (⟨((((cfg1.win 5).blk t).view.emb (ix2 p q)) 1).val, idx2_lt1 _⟩ : Fin 128) = q := Fin.ext (by
    show win1_5.index t (1 : Fin 2) * 128 + 1 * q.val = q.val
    omega)
  rw [hq]
  have ha : ∀ k : Fin 128, iblk1 V c 0 t (ix2 p k) = V c main_v43 (ix2 (n0 := 50000) (n1 := 128)
      ⟨((((cfg1.win 5).blk t).view.emb (ix2 p q)) 0).val, idx2_lt0 _⟩ k) := fun k => by
    show V c main_v43 (((cfg1.win 0).blk t).view.emb (ix2 p k)) = _
    refine congrArg (V c main_v43) (funext fun a => Fin.ext ?_)
    match a with
    | ⟨0, _⟩ =>
      show win1_0.index t (0 : Fin 2) * 5000 + 1 * p.val = win1_5.index t (0 : Fin 2) * 5000 + 1 * p.val
      omega
    | ⟨1, _⟩ =>
      show win1_0.index t (1 : Fin 2) * 128 + 1 * k.val = k.val
      omega
  have hh : ∀ k : Fin 128, iblk1 V c 1 t (ix2 p k) = V c main_v0_1 (ix2 (n0 := 50000) (n1 := 128)
      ⟨((((cfg1.win 5).blk t).view.emb (ix2 p q)) 0).val, idx2_lt0 _⟩ k) := fun k => by
    show V c main_v0_1 (((cfg1.win 1).blk t).view.emb (ix2 p k)) = _
    refine congrArg (V c main_v0_1) (funext fun a => Fin.ext ?_)
    match a with
    | ⟨0, _⟩ =>
      show win1_1.index t (0 : Fin 2) * 5000 + 1 * p.val = win1_5.index t (0 : Fin 2) * 5000 + 1 * p.val
      omega
    | ⟨1, _⟩ =>
      show win1_1.index t (1 : Fin 2) * 128 + 1 * k.val = k.val
      omega
  have hb : ∀ k : Fin 128, iblk1 V c 2 t (ix2 (0 : Fin 1) k) = V c main_v44 (ix2 (0 : Fin 1) k) := fun k => by
    show V c main_v44 (((cfg1.win 2).blk t).view.emb (ix2 (0 : Fin 1) k)) = _
    refine congrArg (V c main_v44) (funext fun a => Fin.ext ?_)
    match a with
    | ⟨0, _⟩ =>
      show win1_2.index t (0 : Fin 2) * 1 + 1 * 0 = 0
      omega
    | ⟨1, _⟩ =>
      show win1_2.index t (1 : Fin 2) * 128 + 1 * k.val = k.val
      omega
  have hw : ∀ k : Fin 128, iblk1 V c 3 t (ix2 (0 : Fin 1) k) = V c main_v45 (ix2 (0 : Fin 1) k) := fun k => by
    show V c main_v45 (((cfg1.win 3).blk t).view.emb (ix2 (0 : Fin 1) k)) = _
    refine congrArg (V c main_v45) (funext fun a => Fin.ext ?_)
    match a with
    | ⟨0, _⟩ =>
      show win1_3.index t (0 : Fin 2) * 1 + 1 * 0 = 0
      omega
    | ⟨1, _⟩ =>
      show win1_3.index t (1 : Fin 2) * 128 + 1 * k.val = k.val
      omega
  have hβ : ∀ k : Fin 128, iblk1 V c 4 t (ix2 (0 : Fin 1) k) = V c main_v46 (ix2 (0 : Fin 1) k) := fun k => by
    show V c main_v46 (((cfg1.win 4).blk t).view.emb (ix2 (0 : Fin 1) k)) = _
    refine congrArg (V c main_v46) (funext fun a => Fin.ext ?_)
    match a with
    | ⟨0, _⟩ =>
      show win1_4.index t (0 : Fin 2) * 1 + 1 * 0 = 0
      omega
    | ⟨1, _⟩ =>
      show win1_4.index t (1 : Fin 2) * 128 + 1 * k.val = k.val
      omega
  simp only [ha, hh, hb, hw, hβ]

/-- An entry of the result array lies in point `t`'s block iff its row is in `5000·t … 5000·t + 4999`. -/
theorem inBlock (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v47).slice (win1_5.rect t)).set ↔ _
  rw [View.set_slice_whole, Rect.mem_set_unit]
  exact Iff.rfl

/-- Row `r` lies in the block of point `r / 5000`. -/
theorem pointOfRow (i : S50000x128.Idx) : (i 0).val / 5000 < cfg1.N := by
  have h := idx2_lt0 i
  rw [show cfg1.N = 10 from N_1]
  omega

/-- THE RESULT ARRAY after the second kernel: the normalised residual sum of the arrays it is entered with. -/
theorem finalOut (c : Dev nD) :
    (dat1 (F := Ideal) V c).arrAt 5 cfg1.N
      = normalised (V c main_v43) (V c main_v0_1) (V c main_v44) (V c main_v45) (V c main_v46) :=
  (dat1 (F := Ideal) V c).arrAt_eq_of_cover 5 _ (fun t _ => flushedOut V c t) (fun i => by
    refine ⟨⟨(i 0).val / 5000, pointOfRow i⟩, flush1_5 _, ?_⟩
    rw [inBlock]
    obtain ⟨e00, e01, e10, e11, e20, e21, e30, e31, e40, e41, e50, e51⟩ := blockStarts ⟨(i 0).val / 5000, pointOfRow i⟩
    have h0 := idx2_lt0 i
    have h1 := idx2_lt1 i
    intro a
    match a with
    | ⟨0, _⟩ =>
      show win1_5.index ⟨(i 0).val / 5000, pointOfRow i⟩ (0 : Fin 2) * 5000 ≤ (i 0).val
        ∧ (i 0).val < win1_5.index ⟨(i 0).val / 5000, pointOfRow i⟩ (0 : Fin 2) * 5000 + 5000
      rw [e50]; show (i 0).val / 5000 * 5000 ≤ (i 0).val ∧ (i 0).val < (i 0).val / 5000 * 5000 + 5000
      omega
    | ⟨1, _⟩ =>
      show win1_5.index ⟨(i 0).val / 5000, pointOfRow i⟩ (1 : Fin 2) * 128 ≤ (i 1).val
        ∧ (i 1).val < win1_5.index ⟨(i 0).val / 5000, pointOfRow i⟩ (1 : Fin 2) * 128 + 128
      rw [e51]; omega)

end

end Cert.KernelIdeal.Normalise

end
-- ==== Proof.RefNorm.lean ====
/-
  The reference's result, read at an entry.

  The reference forms the residual sum `aggregate + bias + x · W_lin + shift` as a 50000×128 array and normalises
  every row: the row sum by a reduction over the second axis from zero, divided by 128 (the mean, kept as a
  column and broadcast back), the deviations, the mean of their squares the same way, plus `ε`, the reciprocal
  square root, and the weight and offset vectors broadcast down the rows. Read at entry `(r, q)`, each of these
  stages depends on row `r` only, and the result is `RowNorm.normEntry` of the residual sum's row `r`. The reading
  goes stage by stage over the generated one-operation lemmas, the residual sum kept as one named stage until the
  last step.
-/
import proofs.«179050_j2302102471102_1_alg».proof.Proof.RefRead
import proofs.«179050_j2302102471102_1_alg».proof.Proof.RowNorm
import Idealize.ShloMosaic.Lib.ValueIdx
import Idealize.ShloMosaic.PureOps.Ideal.Laws

set_option maxRecDepth 16384

noncomputable section

namespace Cert.ReferenceIdeal.RefNorm

open Cert.ReferenceIdeal Cert.ReferenceIdeal.ReadP
open Idealize.ShloMosaic Idealize.ShloMosaic.TcCoe Idealize.ShloMosaic.ValueIdx
open Cert.RowNorm (len eps shift mean normEntry)

variable (x0 : (⟨S2x800000, .i32⟩ : BufTy).Contents (Elt Ideal)) (x1 : (⟨S50000x128, .f32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 : (⟨S128, .f32⟩ : BufTy).Contents (Elt Ideal))

/-- The residual sum at an entry: aggregate plus bias plus projection plus shift, in the reference's grouping. -/
theorem resid (r : Fin 50000) (k : Fin 128) :
    val_main_v50 (F := Ideal) x0 x1 x2 x3 x4 (ix2 r k)
      = val_main_v43 (F := Ideal) x0 x1 x2 (ix2 r k) + x3 (ix1 k) + val_main_v47 (F := Ideal) x1 x4 (ix2 r k) + shift := by
  rw [val_main_v50_apply, val_main_v48_apply, val_main_v46_apply, val_main_v45_apply, val_main_v44_apply,
    val_main_v49_apply, val_main_cst_9_apply]
  show val_main_v43 (F := Ideal) x0 x1 x2 (ix2 r k) + x3 (idx_main_v44 (idx_main_v45 (ix2 r k)))
      + val_main_v47 (F := Ideal) x1 x4 (ix2 r k) + Ideal.ofBits .f32 0x358637BD#32 = _
  rw [show idx_main_v44 (idx_main_v45 (ix2 r k)) = ix1 k from funext fun a => by match a with | ⟨0, _⟩ => rfl]

/-- The mean column at row `r`: the mean of the residual sum's row `r`. -/
theorem meanRef (r : Fin 50000) :
    val_main_v54 (F := Ideal) x0 x1 x2 x3 x4 (ix2 r (0 : Fin 1)) = mean (fun k => val_main_v50 (F := Ideal) x0 x1 x2 x3 x4 (ix2 r k)) := by
  rw [val_main_v54_apply, val_main_v52_apply, val_main_v51_apply, val_main_v53_apply, val_main_cst_11_apply,
    val_main_cst_10_apply]
  show Ideal.div (Ideal.ofBits .f32 0x00000000#32
      + ∑ k : Fin 128, val_main_v50 (F := Ideal) x0 x1 x2 x3 x4 (idx_main_v51 (idx_main_v52 (ix2 r (0 : Fin 1))) k)) len = _
  rw [Ideal.ofBits_zero_f32, zero_add]
  unfold mean
  exact congrArg (Ideal.div · len) (Finset.sum_congr rfl fun k _ => congrArg (val_main_v50 (F := Ideal) x0 x1 x2 x3 x4)
    (funext fun a => by match a with | ⟨0, _⟩ => rfl | ⟨1, _⟩ => rfl))

/-- A deviation: the residual sum's entry minus its row's mean. -/
theorem deviation (r : Fin 50000) (q : Fin 128) :
    val_main_v56 (F := Ideal) x0 x1 x2 x3 x4 (ix2 r q)
      = val_main_v50 (F := Ideal) x0 x1 x2 x3 x4 (ix2 r q) - mean (fun k => val_main_v50 (F := Ideal) x0 x1 x2 x3 x4 (ix2 r k)) := by
  rw [val_main_v56_apply, val_main_v55_apply,
    show idx_main_v55 (ix2 r q) = ix2 r (0 : Fin 1) from funext fun a => by match a with | ⟨0, _⟩ => rfl | ⟨1, _⟩ => rfl,
    meanRef]
  rfl

/-- The reference subtracts the mean a second time for the final product: the same deviation. -/
theorem deviation' (r : Fin 50000) (q : Fin 128) :
    val_main_v63 (F := Ideal) x0 x1 x2 x3 x4 (ix2 r q)
      = val_main_v50 (F := Ideal) x0 x1 x2 x3 x4 (ix2 r q) - mean (fun k => val_main_v50 (F := Ideal) x0 x1 x2 x3 x4 (ix2 r k)) := by
  rw [val_main_v63_apply, val_main_v62_apply,
    show idx_main_v62 (ix2 r q) = ix2 r (0 : Fin 1) from funext fun a => by match a with | ⟨0, _⟩ => rfl | ⟨1, _⟩ => rfl,
    meanRef]
  rfl

/-- The mean-square column at row `r`: the mean of the squared deviations of row `r`. -/
theorem meanSquare (r : Fin 50000) :
    val_main_v61 (F := Ideal) x0 x1 x2 x3 x4 (ix2 r (0 : Fin 1))
      = mean (fun k => val_main_v56 (F := Ideal) x0 x1 x2 x3 x4 (ix2 r k) * val_main_v56 (F := Ideal) x0 x1 x2 x3 x4 (ix2 r k)) := by
  rw [val_main_v61_apply, val_main_v59_apply, val_main_v58_apply, val_main_v60_apply, val_main_cst_13_apply,
    val_main_cst_12_apply]
  show Ideal.div (Ideal.ofBits .f32 0x00000000#32
      + ∑ k : Fin 128, val_main_v57 (F := Ideal) x0 x1 x2 x3 x4 (idx_main_v58 (idx_main_v59 (ix2 r (0 : Fin 1))) k)) len = _
  rw [Ideal.ofBits_zero_f32, zero_add]
  unfold mean
  refine congrArg (Ideal.div · len) (Finset.sum_congr rfl fun k _ => ?_)
  rw [show idx_main_v58 (idx_main_v59 (ix2 r (0 : Fin 1))) k = ix2 r k from
    funext fun a => by match a with | ⟨0, _⟩ => rfl | ⟨1, _⟩ => rfl, val_main_v57_apply]
  simp only [Ideal.mulf_def]

/-- The result's entry: deviation times the row's scale, times the weight, plus the offset. -/
theorem entry (r : Fin 50000) (q : Fin 128) :
    val_main_v74 (F := Ideal) x0 x1 x2 x3 x4 x5 x6 (ix2 r q)
      = val_main_v63 (F := Ideal) x0 x1 x2 x3 x4 (ix2 r q)
          * Ideal.rsqrt (val_main_v61 (F := Ideal) x0 x1 x2 x3 x4 (ix2 r (0 : Fin 1)) + eps) * x5 (ix1 q) + x6 (ix1 q) := by
  rw [val_main_v74_apply, val_main_v71_apply, val_main_v68_apply, val_main_v67_apply, val_main_v66_apply,
    val_main_v65_apply, val_main_v64_apply, val_main_cst_14_apply, val_main_v70_apply, val_main_v69_apply,
    val_main_v73_apply, val_main_v72_apply,
    show idx_main_v67 (ix2 r q) = ix2 r (0 : Fin 1) from funext fun a => by match a with | ⟨0, _⟩ => rfl | ⟨1, _⟩ => rfl,
    show idx_main_v69 (idx_main_v70 (ix2 r q)) = ix1 q from funext fun a => by match a with | ⟨0, _⟩ => rfl,
    show idx_main_v72 (idx_main_v73 (ix2 r q)) = ix1 q from funext fun a => by match a with | ⟨0, _⟩ => rfl]
  rfl

/-- The result's entry over the residual sum as one named stage: the normalisation of its row `r`. -/
theorem result_over_resid (r : Fin 50000) (q : Fin 128) :
    val_main_v74 (F := Ideal) x0 x1 x2 x3 x4 x5 x6 (ix2 r q)
      = normEntry (fun k => val_main_v50 (F := Ideal) x0 x1 x2 x3 x4 (ix2 r k))
          (fun k => x5 (ix1 k)) (fun k => x6 (ix1 k)) q := by
  rw [entry, meanSquare, deviation']
  simp only [deviation]
  unfold normEntry
  with_reducible rfl

/-- THE REFERENCE'S RESULT at an entry: the normalisation of the residual sum's row. -/
theorem result_apply (r : Fin 50000) (q : Fin 128) :
    val_main_v74 (F := Ideal) x0 x1 x2 x3 x4 x5 x6 (ix2 r q)
      = normEntry (fun k => val_main_v43 (F := Ideal) x0 x1 x2 (ix2 r k) + x3 (ix1 k)
            + val_main_v47 (F := Ideal) x1 x4 (ix2 r k) + shift)
          (fun k => x5 (ix1 k)) (fun k => x6 (ix1 k)) q := by
  rw [result_over_resid]
  simp only [resid]

end Cert.ReferenceIdeal.RefNorm

end
-- ==== Proof.Bridge.lean ====
/-
  The two programs compute one function of the seven arguments.

  `result` is that function: entry `(r, c)` is the normalisation (`RowNorm.normEntry`) of row `r` of
  `aggregate + bias + x · W_lin + shift`, the aggregate being the reference's own aggregate stage of the edge list
  and of `x · W_gcn`. The reference's result is `result` by its stage-by-stage reading. The kernel's result buffer
  is traced back through its run: it is what the second kernel's write-backs leave, the normalised residual sum
  of the arrays that kernel is entered with; those are the host operations' aggregate of the first kernel's first
  result, the first kernel's second result untouched, and the three parameter vectors as rows; and the first
  kernel's results are the two products. The two residual sums differ in grouping only.
-/
import proofs.«179050_j2302102471102_1_alg».proof.Proof.Projection
import proofs.«179050_j2302102471102_1_alg».proof.Proof.Aggregate
import proofs.«179050_j2302102471102_1_alg».proof.Proof.Normalise
import proofs.«179050_j2302102471102_1_alg».proof.Proof.RefNorm
import Idealize.ShloMosaic.Lib.ValueLayout

set_option maxRecDepth 16384

noncomputable section

namespace Cert.Bridge

open Cert.KernelIdeal Cert.KernelIdeal.Gen
open Idealize.ShloMosaic Idealize.ShloMosaic.TcCoe Idealize.ShloMosaic.ValueIdx Idealize.SL.Sem
open Cert.RowNorm (len eps shift mean normEntry)

/-- The common result: the normalised residual sum, in the reference's grouping, over the reference's stages. -/
def result (x0 : (⟨Cert.ReferenceIdeal.S2x800000, .i32⟩ : BufTy).Contents (Elt Ideal)) (x1 : (⟨Cert.ReferenceIdeal.S50000x128, .f32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x5 x6 : (⟨Cert.ReferenceIdeal.S128, .f32⟩ : BufTy).Contents (Elt Ideal)) :
    FVec Ideal S50000x128 .f32 := fun i =>
  normEntry
    (fun k => Cert.ReferenceIdeal.ReadP.val_main_v43 (F := Ideal) x0 x1 x2 (ix2 (n0 := 50000) (n1 := 128) ⟨(i 0).val, idx2_lt0 i⟩ k) + x3 (ix1 k)
      + Cert.ReferenceIdeal.ReadP.val_main_v47 (F := Ideal) x1 x4 (ix2 (n0 := 50000) (n1 := 128) ⟨(i 0).val, idx2_lt0 i⟩ k) + shift)
    (fun k => x5 (ix1 k)) (fun k => x6 (ix1 k)) ⟨(i 1).val, idx2_lt1 i⟩

/-- The reference's result stage is `result`. -/
theorem reference_eq (x0 : (⟨Cert.ReferenceIdeal.S2x800000, .i32⟩ : BufTy).Contents (Elt Ideal)) (x1 : (⟨Cert.ReferenceIdeal.S50000x128, .f32⟩ : BufTy).Contents (Elt Ideal))
    (x2 : (⟨Cert.ReferenceIdeal.S128x128, .f32⟩ : BufTy).Contents (Elt Ideal)) (x3 : (⟨Cert.ReferenceIdeal.S128, .f32⟩ : BufTy).Contents (Elt Ideal))
    (x4 : (⟨Cert.ReferenceIdeal.S128x128, .f32⟩ : BufTy).Contents (Elt Ideal)) (x5 x6 : (⟨Cert.ReferenceIdeal.S128, .f32⟩ : BufTy).Contents (Elt Ideal)) :
    Cert.ReferenceIdeal.ReadP.val_main_v74 (F := Ideal) x0 x1 x2 x3 x4 x5 x6 = result x0 x1 x2 x3 x4 x5 x6 := by
  funext i
  obtain ⟨r, q, rfl⟩ : ∃ (r : Fin 50000) (q : Fin 128), i = ix2 r q := ⟨i 0, i 1, eq_ix2 i⟩
  exact Cert.ReferenceIdeal.RefNorm.result_apply x0 x1 x2 x3 x4 x5 x6 r q

/-- The kernel's product function is the reference's first product stage: both are the sum over `k`. -/
theorem product_gcn (x : FVec Ideal S50000x128 .f32) (w : FVec Ideal S128x128 .f32) :
    Cert.KernelIdeal.Projection.rowsTimes x w = Cert.ReferenceIdeal.ReadP.val_main_v30 (F := Ideal) x w := by
  funext i
  rw [Cert.ReferenceIdeal.ReadP.val_main_v30_apply]
  unfold Cert.KernelIdeal.Projection.rowsTimes
  exact Finset.sum_congr rfl fun k _ => congrArg₂ (· * ·)
    (congrArg x (funext fun a => by match a with | ⟨0, _⟩ => rfl | ⟨1, _⟩ => rfl))
    (congrArg w (funext fun a => by match a with | ⟨0, _⟩ => rfl | ⟨1, _⟩ => rfl))

/-- … and the reference's second product stage. -/
theorem product_lin (x : FVec Ideal S50000x128 .f32) (w : FVec Ideal S128x128 .f32) :
    Cert.KernelIdeal.Projection.rowsTimes x w = Cert.ReferenceIdeal.ReadP.val_main_v47 (F := Ideal) x w := by
  funext i
  rw [Cert.ReferenceIdeal.ReadP.val_main_v47_apply]
  unfold Cert.KernelIdeal.Projection.rowsTimes
  exact Finset.sum_congr rfl fun k _ => congrArg₂ (· * ·)
    (congrArg x (funext fun a => by match a with | ⟨0, _⟩ => rfl | ⟨1, _⟩ => rfl))
    (congrArg w (funext fun a => by match a with | ⟨0, _⟩ => rfl | ⟨1, _⟩ => rfl))

/-- `normEntry` depends on its three rows entry by entry. -/
theorem normEntry_congr {y y' w w' β β' : Fin 128 → EReal} (hy : ∀ k, y k = y' k) (hw : ∀ k, w k = w' k)
    (hβ : ∀ k, β k = β' k) (q : Fin 128) : normEntry y w β q = normEntry y' w' β' q := by
  rw [show y = y' from funext hy, show w = w' from funext hw, show β = β' from funext hβ]

/-- The normalised residual sum in the kernel's grouping, its three parameter rows being vectors reshaped to one
    row, is the one in the reference's grouping over the vectors. -/
theorem regrouped (a h : FVec Ideal S50000x128 .f32) (b w β : FVec Ideal S128 .f32) :
    Cert.KernelIdeal.Normalise.normalised a h (shapeCast S1x128 b shapeCasts_S128_S1x128)
        (shapeCast S1x128 w shapeCasts_S128_S1x128) (shapeCast S1x128 β shapeCasts_S128_S1x128)
      = fun i => normEntry
          (fun k => a (ix2 (n0 := 50000) (n1 := 128) ⟨(i 0).val, idx2_lt0 i⟩ k) + b (ix1 k)
            + h (ix2 (n0 := 50000) (n1 := 128) ⟨(i 0).val, idx2_lt0 i⟩ k) + shift)
          (fun k => w (ix1 k)) (fun k => β (ix1 k)) ⟨(i 1).val, idx2_lt1 i⟩ := by
  funext i
  unfold Cert.KernelIdeal.Normalise.normalised
  refine normEntry_congr (fun k => ?_) (fun k => ?_) (fun k => ?_) _
  · rw [shapeCast_a_1a_apply (a := 128) b shapeCasts_S128_S1x128 (0 : Fin 1) k]
    exact Cert.RowNorm.regroup _ _ _ _
  · exact shapeCast_a_1a_apply (a := 128) w shapeCasts_S128_S1x128 (0 : Fin 1) k
  · exact shapeCast_a_1a_apply (a := 128) β shapeCasts_S128_S1x128 (0 : Fin 1) k

section
variable (m : (ℓ : Loc nD τ sig) → Buf (Elt Ideal) ℓ) (ρ : Dev nD → PrngReg)

/-- A buffer no window of the first kernel writes holds, after it, what was launched. -/
theorem keptByFirst (c : Dev nD) (b : Ref sig .tc) (hb : ∀ w, Pipeline.arrRef spec0 w ≠ b) :
    W1 m ρ c (Proc.devRef .tc b) = m ((c.tc : Thread nD τ).loc b) :=
  (W1_of_ne m ρ c b hb).trans rfl

/-- After the first kernel its first result buffer holds the reference's first product stage of the arguments. -/
theorem firstProduct (c : Dev nD) :
    W1 m ρ c (Proc.devRef .tc main_v0_0)
      = Cert.ReferenceIdeal.ReadP.val_main_v30 (F := Ideal) (m ((c.tc : Thread nD τ).loc main_arg1)) (m ((c.tc : Thread nD τ).loc main_arg2)) :=
  (W1_arr m ρ c 3).trans ((Cert.KernelIdeal.Projection.finalGcn (V0 m ρ) c).trans (product_gcn _ _))

/-- … and its second result buffer the second product stage. -/
theorem secondProduct (c : Dev nD) :
    W1 m ρ c (Proc.devRef .tc main_v0_1)
      = Cert.ReferenceIdeal.ReadP.val_main_v47 (F := Ideal) (m ((c.tc : Thread nD τ).loc main_arg1)) (m ((c.tc : Thread nD τ).loc main_arg4)) :=
  (W1_arr m ρ c 4).trans ((Cert.KernelIdeal.Projection.finalLin (V0 m ρ) c).trans (product_lin _ _))

/-- THE KERNEL'S RESULT BUFFER after its run is `result` of the launch contents of the seven arguments. -/
theorem kernel_eq (c : Dev nD) :
    W5 m ρ c (Proc.devRef .tc main_v47)
      = result (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) := by
  have h43 : V4 m ρ c main_v43 = Cert.ReferenceIdeal.ReadP.val_main_v43 (F := Ideal) (m ((c.tc : Thread nD τ).loc main_arg0)) (m ((c.tc : Thread nD τ).loc main_arg1)) (m ((c.tc : Thread nD τ).loc main_arg2)) := by
    have h := Cert.KernelIdeal.Aggregate.aggregated (F := Ideal) (W1 m ρ c) _ _ (firstProduct m ρ c)
    rw [keptByFirst m ρ c main_arg0 (by decide)] at h
    exact h
  have h01 : V4 m ρ c main_v0_1 = Cert.ReferenceIdeal.ReadP.val_main_v47 (F := Ideal) (m ((c.tc : Thread nD τ).loc main_arg1)) (m ((c.tc : Thread nD τ).loc main_arg4)) :=
    (Cert.KernelIdeal.Aggregate.projectedKept (F := Ideal) (W1 m ρ c)).trans (secondProduct m ρ c)
  have h44 : V4 m ρ c main_v44 = shapeCast S1x128 (m ((c.tc : Thread nD τ).loc main_arg3)) shapeCasts_S128_S1x128 := by
    have h := Cert.KernelIdeal.Aggregate.biasRow (F := Ideal) (W1 m ρ c)
    rw [keptByFirst m ρ c main_arg3 (by decide)] at h
    exact h
  have h45 : V4 m ρ c main_v45 = shapeCast S1x128 (m ((c.tc : Thread nD τ).loc main_arg5)) shapeCasts_S128_S1x128 := by
    have h := Cert.KernelIdeal.Aggregate.weightRow (F := Ideal) (W1 m ρ c)
    rw [keptByFirst m ρ c main_arg5 (by decide)] at h
    exact h
  have h46 : V4 m ρ c main_v46 = shapeCast S1x128 (m ((c.tc : Thread nD τ).loc main_arg6)) shapeCasts_S128_S1x128 := by
    have h := Cert.KernelIdeal.Aggregate.offsetRow (F := Ideal) (W1 m ρ c)
    rw [keptByFirst m ρ c main_arg6 (by decide)] at h
    exact h
  refine (W5_arr m ρ c 5).trans ((Cert.KernelIdeal.Normalise.finalOut (V4 m ρ) c).trans ?_)
  rw [h43, h01, h44, h45, h46]
  exact regrouped _ _ _ _ _

end

end Cert.Bridge

end
-- ==== Proof.lean ====
/-
  The certificate: a graph-convolution layer with a residual projection and a layer normalisation, computed by
  two kernels around the host's edge aggregation, against the plain reference.

  The first kernel forms the two products `x · W_gcn` and `x · W_lin` block by block; the host aggregates the first
  over the edge list with symmetric degree normalisation, exactly as the reference does; the second kernel adds
  aggregate, projection, bias and a shift and normalises every row. Over the extended reals the blockwise products
  are the whole products, the aggregation is the same function of the same product, and the two residual sums
  differ only in the order of two additions, which commute. So both programs end with the same array, entry by
  entry, for every input: no finiteness of the inputs is used.

  The three frames: the kernel's two programs run, fault-free, with their arguments unchanged, by the frame of
  their two-kernel run; the reference's by its run read back. The idealization rewrote no operation.
-/
import proofs.«179050_j2302102471102_1_alg».proof.Defs
import proofs.«179050_j2302102471102_1_alg».proof.Proof.Gen.Kernel
import proofs.«179050_j2302102471102_1_alg».proof.Proof.Gen.Kernel.Frame
import proofs.«179050_j2302102471102_1_alg».proof.Proof.Gen.KernelIdeal
import proofs.«179050_j2302102471102_1_alg».proof.Proof.Gen.KernelIdeal.Frame
import proofs.«179050_j2302102471102_1_alg».proof.Proof.Gen.ReferenceIdeal
import proofs.«179050_j2302102471102_1_alg».proof.Proof.Gen.Pre_finite_inputs
import proofs.«179050_j2302102471102_1_alg».proof.Proof.RunNamed
import proofs.«179050_j2302102471102_1_alg».proof.Proof.RefRun
import proofs.«179050_j2302102471102_1_alg».proof.Proof.RefRead
import proofs.«179050_j2302102471102_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs, from memories agreeing on the seven arguments, end with `Cert.Bridge.result` of those arguments
    in their result buffers: the kernel by its run traced back through both kernels and the host operations
    between them, the reference by its run read stage by stage. -/
theorem algebraic : Cert.algebraic_KernelIdeal_ReferenceIdeal := by
  intro m ρ m' ρ' _ hagree
  refine ⟨fun c => Cert.Bridge.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Bridge.kernel_eq m ρ c), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v74_eq, Cert.Bridge.reference_eq,
      (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
